-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part1 {F : FTy → Type} [FloatOps F] (main_arg1 : IVec S2x1000000 32) (main_arg5 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x1000000 32 := broadcastInDim S2x1000000 ![] bcast_S_S2x1000000 main_c_8
  let main_v25 : IVec S2x1000000 1 := cmpi .sge main_arg1 main_v24
  let main_c_9 : IVec S_ 32 := constantI S_ 32 100000#32
  let main_v26 : IVec S2x1000000 32 := broadcastInDim S2x1000000 ![] bcast_S_S2x1000000 main_c_9
  let main_v27 : IVec S2x1000000 1 := cmpi .slt main_arg1 main_v26
  let main_v28 : IVec S2x1000000 1 := andi main_v25 main_v27
  let main_c_10 : IVec S_ 1 := constantI S_ 1 1#1
  let main_v29 : IVec S_ 1 := (fun x v => Host.reduce IntOp.andi x v reducesTo_S2x1000000_S_d0_1 h_S_) main_v28 main_c_10
  let main_v30 : IVec S_ 1 := andi main_v23 main_v29
  main_v30

def fn {F : FTy → Type} [FloatOps F] (main_arg0 : FVec F S100000x128 .f32) (main_arg1 : IVec S2x1000000 32) (main_arg2 : FVec F S128x256 .f32) (main_arg3 : FVec F S128 .f32) (main_arg4 : FVec F S1x128 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_arg5 main_v13 main_v16
-- ==== Kernel.lean ====
abbrev S100000x128 : Shape := ⟨2, ![100000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x1 : Shape := ⟨2, ![1, 1]⟩
abbrev S1000000x128 : Shape := ⟨2, ![1000000, 128]⟩
abbrev S128x128 : Shape := ⟨2, ![128, 128]⟩
abbrev S128x1 : Shape := ⟨2, ![128, 1]⟩
abbrev S4000x128 : Shape := ⟨2, ![4000, 128]⟩
abbrev S4000x1 : Shape := ⟨2, ![4000, 1]⟩

abbrev nBuf : Space → Nat
  | .hbm => 65
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1, .i32⟩
  | .hbm, ⟨19, _⟩ => ⟨S_, .i32⟩
  | .hbm, ⟨20, _⟩ => ⟨S1000000x1, .i32⟩
  | .hbm, ⟨21, _⟩ => ⟨S1000000x1, .i1⟩
  | .hbm, ⟨22, _⟩ => ⟨S1x1, .i32⟩
  | .hbm, ⟨23, _⟩ => ⟨S1000000x1, .i32⟩
  | .hbm, ⟨24, _⟩ => ⟨S1000000x1, .i1⟩
  | .hbm, ⟨25, _⟩ => ⟨S1000000x1, .i1⟩
  | .hbm, ⟨26, _⟩ => ⟨S_, .i1⟩
  | .hbm, ⟨27, _⟩ => ⟨S1000000, .i1⟩
  | .hbm, ⟨28, _⟩ => ⟨S1000000x128, .f32⟩
  | .hbm, ⟨29, _⟩ => ⟨S1000000x128, .i1⟩
  | .hbm, ⟨30, _⟩ => ⟨S_, .f32⟩
  | .hbm, ⟨31, _⟩ => ⟨S1000000x128, .f32⟩
  | .hbm, ⟨32, _⟩ => ⟨S1000000x128, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1, .i32⟩
  | .hbm, ⟨42, _⟩ => ⟨S_, .i32⟩
  | .hbm, ⟨43, _⟩ => ⟨S1000000x1, .i32⟩
  | .hbm, ⟨44, _⟩ => ⟨S1000000x1, .i1⟩
  | .hbm, ⟨45, _⟩ => ⟨S1x1, .i32⟩
  | .hbm, ⟨46, _⟩ => ⟨S1000000x1, .i32⟩
  | .hbm, ⟨47, _⟩ => ⟨S1000000x1, .i1⟩
  | .hbm, ⟨48, _⟩ => ⟨S1000000x1, .i1⟩
  | .hbm, ⟨49, _⟩ => ⟨S_, .i1⟩
  | .hbm, ⟨50, _⟩ => ⟨S1000000, .i1⟩
  | .hbm, ⟨51, _⟩ => ⟨S1000000x128, .f32⟩
  | .hbm, ⟨52, _⟩ => ⟨S1000000x128, .i1⟩
  | .hbm, ⟨53, _⟩ => ⟨S_, .f32⟩
  | .hbm, ⟨54, _⟩ => ⟨S1000000x128, .f32⟩
  | .hbm, ⟨55, _⟩ => ⟨S1000000x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x1, .f32⟩
  | .hbm, ⟨61, _⟩ => ⟨S1x128, .f32⟩
  | .hbm, ⟨62, _⟩ => ⟨S1x1, .f32⟩
  | .hbm, ⟨63, _⟩ => ⟨S1000000x1, .f32⟩
  | .hbm, ⟨64, _⟩ => ⟨S1000000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x1, .f32⟩
  | .local _ .vmem, ⟨8, _⟩ => ⟨S1x1, .f32⟩
  | .local _ .vmem, ⟨9, _⟩ => ⟨S4000x1, .f32⟩
  | .local _ .vmem, ⟨10, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  transposes_S1x128_S128x1_1_0 : S1x128.Transposes [1, 0] S128x1
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1000000x128.size a
  hwx0_1 : ∀ i : grid0.Coords, EltTy.bits .f32 = 32 ∨ (Rect.block (s := S1000000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S1000000x1.size a
  hwx0_7 : ∀ i : grid0.Coords, EltTy.bits .f32 = 32 ∨ (Rect.block (s := S1000000x1) S4000x1.size (cc0_transform_7 i) (hinb0_7 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S4000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S1000000x256, .f32⟩
  | .hbm, ⟨29, _⟩ => ⟨S256x128, .f32⟩
  | .hbm, ⟨30, _⟩ => ⟨S1000000x128, .f32⟩
  | .hbm, ⟨31, _⟩ => ⟨S1x128, .f32⟩
  | .hbm, ⟨32, _⟩ => ⟨S1000000x128, .f32⟩
  | .hbm, ⟨33, _⟩ => ⟨S1000000x128, .f32⟩
  | .hbm, ⟨34, _⟩ => ⟨S_, .f32⟩
  | .hbm, ⟨35, _⟩ => ⟨S1000000x128, .f32⟩
  | .hbm, ⟨36, _⟩ => ⟨S1000000x128, .f32⟩
  | .hbm, ⟨37, _⟩ => ⟨S128x1, .f32⟩
  | .hbm, ⟨38, _⟩ => ⟨S1000000x1, .f32⟩
  | .hbm, ⟨39, _⟩ => ⟨S1x1, .f32⟩
  | .hbm, ⟨40, _⟩ => ⟨S1000000x1, .f32⟩
  | .hbm, ⟨41, _⟩ => ⟨S1000000x1, .f32⟩
  | .hbm, ⟨42, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x256_d1 : Shape.Concatenates [S1000000x128, S1000000x128] S1000000x256 1
  transposes_S128x256_S256x128_1_0 : S128x256.Transposes [1, 0] S256x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S1x128_S128x1_1_0 : S1x128.Transposes [1, 0] S128x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.EdgeScore.lean ====
/-
  The score of ONE edge, as a function of the two gathered embedding rows and the weights, and the one law of sums
  the certificate needs.

  An edge with endpoint rows `a, b : Fin 128 → EReal` is scored by a two-layer perceptron on the joined row
  `[a | b]`: hidden unit `j` is `max (⟨[a | b], W1 j⟩ + c j) 0` and the score is `Σ j, hidden j * w j + d`. The
  kernel never joins the rows: it multiplies `a` by the left half of `W1` and `b` by the right half and adds the
  two products, so its hidden unit is `max ((Σ k, a k * wa k j) + (Σ k, b k * wb k j) + c j) 0`. The reference joins
  them and takes one sum over 256 positions. The two agree because a sum over `Fin 256` is the sum over its first 128
  positions plus the sum over its last 128 (`sum_two_halves`): only associativity and commutativity of `+` on the
  extended reals are used, so no finiteness is needed anywhere.
-/
import Idealize.ShloMosaic.PureOps.Ideal
import Mathlib.Algebra.BigOperators.Fin

noncomputable section

namespace Cert.EdgeScore

/-- The score of one edge from its two endpoint rows `a`, `b`, the two halves `wa`, `wb` of the first layer (indexed
    input position first, hidden unit second), the first bias `c`, the second layer `w` and the second bias `d`. -/
def score (a b : Fin 128 → EReal) (wa wb : Fin 128 → Fin 128 → EReal) (c w : Fin 128 → EReal) (d : EReal) : EReal :=
  (∑ j : Fin 128, max ((∑ k : Fin 128, a k * wa k j) + (∑ k : Fin 128, b k * wb k j) + c j) 0 * w j) + d

/-- The score depends on its arguments only through their values. -/
theorem score_congr {a a' b b' : Fin 128 → EReal} {wa wa' wb wb' : Fin 128 → Fin 128 → EReal} {c c' w w' : Fin 128 → EReal}
    {d d' : EReal} (ha : ∀ k, a k = a' k) (hb : ∀ k, b k = b' k) (hwa : ∀ k j, wa k j = wa' k j) (hwb : ∀ k j, wb k j = wb' k j)
    (hc : ∀ j, c j = c' j) (hw : ∀ j, w j = w' j) (hd : d = d') :
    score a b wa wb c w d = score a' b' wa' wb' c' w' d' := by
  obtain rfl : a = a' := funext ha
  obtain rfl : b = b' := funext hb
  obtain rfl : wa = wa' := funext fun k => funext (hwa k)
  obtain rfl : wb = wb' := funext fun k => funext (hwb k)
  obtain rfl : c = c' := funext hc
  obtain rfl : w = w' := funext hw
  rw [hd]

/-- A sum over 256 positions is the sum over the first 128 plus the sum over the last 128. -/
theorem sum_two_halves (f : Fin 256 → EReal) :
    ∑ k : Fin 256, f k = (∑ k : Fin 128, f ⟨k.val, by omega⟩) + ∑ k : Fin 128, f ⟨128 + k.val, by omega⟩ :=
  Fin.sum_univ_add (fun k : Fin (128 + 128) => f k)

end Cert.EdgeScore

end
-- ==== Proof.KernelBody.lean ====
/-
  The kernel body's one store, read at an index. The body loads a block of 4000 edges — the two gathered row blocks
  `x0`, `x1` : [4000, 128], the two halves of the first layer `x2`, `x3` : [128, 128] (input position first), the
  biases and the second layer — and stores `relu (x0 · x2 + x1 · x3 + x4) · x5 + x6` : [4000, 1]. At the extended
  reals a format change is the identity and a matrix product into a zero accumulator is the plain sum over the
  contracted position, so row `p` of the stored block is `EdgeScore.score` of rows `p` of `x0` and `x1`.
-/
import proofs.«428536_j19061064860126_1_alg».proof.Proof.Gen.KernelIdeal.Skeleton
import proofs.«428536_j19061064860126_1_alg».proof.Proof.EdgeScore
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.EdgeScore

/-! ## Which operand entries a product's entry reads: [4000, 128] × [128, 128] -/

theorem lhsA_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhsA_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhsA_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhsA_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, j) of a [4000, 128] × [128, 128] product into a zero accumulator is the sum over the contracted position. -/
theorem matmulA_apply (l : FVec Ideal S4000x128 .bf16) (r : FVec Ideal S128x128 .bf16) (p : Fin 4000) (j : Fin 128) :
    matmul dot_S4000x128_S128x128_S4000x128_1_0_0_1_n_n none l r (constant (F := Ideal) S4000x128 .f32 0x00000000#32) (ix2 p j)
      = ∑ k : Fin 128, l (ix2 p k) * r (ix2 k j) := by
  show FloatOps.matmul dot_S4000x128_S128x128_S4000x128_1_0_0_1_n_n none l r (constant (F := Ideal) S4000x128 .f32 0x00000000#32) (ix2 p j) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-! ## [4000, 128] × [128, 1] -/

theorem lhsB_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhsB_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhsB_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhsB_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- Entry (p, q) of a [4000, 128] × [128, 1] product into a zero accumulator is the sum over the contracted position. -/
theorem matmulB_apply (l : FVec Ideal S4000x128 .bf16) (r : FVec Ideal S128x1 .bf16) (p : Fin 4000) (q : Fin 1) :
    matmul dot_S4000x128_S128x1_S4000x1_1_0_0_1_n_n none l r (constant (F := Ideal) S4000x1 .f32 0x00000000#32) (ix2 p q)
      = ∑ j : Fin 128, l (ix2 p j) * r (ix2 j q) := by
  show FloatOps.matmul dot_S4000x128_S128x1_S4000x1_1_0_0_1_n_n none l r (constant (F := Ideal) S4000x1 .f32 0x00000000#32) (ix2 p q) = _
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p q) ((contrEquiv1 dot_S4000x128_S128x1_S4000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S4000x128_S128x1_S4000x1_1_0_0_1_n_n.rhsIdx (ix2 p q) ((contrEquiv1 dot_S4000x128_S128x1_S4000x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The two biases, laid along the edges -/

/-- The first bias [1, 128] laid over [4000, 128] reads, at (p, j), its entry (0, j). -/
theorem bias1_apply (v : FVec Ideal S1x128 .f32) (p : Fin 4000) (j : Fin 128) :
    broadcastTo S4000x128 v broadcasts_S1x128_S4000x128 (ix2 p j) = v (ix2 0 j) :=
  broadcastTo_apply v broadcasts_S1x128_S4000x128 (ix2 p j) (ix2 0 j) (fun a => by
    match a with
    | ⟨0, _⟩ => show 0 = if (1 : Nat) = 1 then 0 else _; rw [if_pos rfl]
    | ⟨1, _⟩ => show j.val = if (128 : Nat) = 1 then 0 else _; rw [if_neg (by decide)]; rfl)

/-- The second bias [1, 1] laid over [4000, 1] reads its one entry everywhere. -/
theorem bias2_apply (v : FVec Ideal S1x1 .f32) (p : Fin 4000) (q : Fin 1) :
    broadcastTo S4000x1 v broadcasts_S1x1_S4000x1 (ix2 p q) = v (ix2 0 0) :=
  broadcastTo_apply v broadcasts_S1x1_S4000x1 (ix2 p q) (ix2 0 0) (fun a => by
    match a with
    | ⟨0, _⟩ => show 0 = if (1 : Nat) = 1 then 0 else _; rw [if_pos rfl]
    | ⟨1, _⟩ => show 0 = if (1 : Nat) = 1 then 0 else _; rw [if_pos rfl])

/-! ## The stored block -/

/-- Row `p` of the block the body stores is the score of rows `p` of the two gathered blocks. -/
theorem pay_apply (x0 x1 : Vec Ideal S4000x128 .f32) (x2 x3 : Vec Ideal S128x128 .f32) (x4 : Vec Ideal S1x128 .f32)
    (x5 : Vec Ideal S128x1 .f32) (x6 : Vec Ideal S1x1 .f32) (p : Fin 4000) (q : Fin 1) :
    k0_pay1 (F := Ideal) x0 x1 x2 x3 x4 x5 x6 (ix2 p q)
      = score (fun k => x0 (ix2 p k)) (fun k => x1 (ix2 p k)) (fun k j => x2 (ix2 k j)) (fun k j => x3 (ix2 k j))
          (fun j => x4 (ix2 0 j)) (fun j => x5 (ix2 j 0)) (x6 (ix2 0 0)) := by
  obtain rfl : q = 0 := Subsingleton.elim _ _
  unfold k0_pay1
  simp only [shapeCast_self]
  rw [addf_apply, matmulB_apply, bias2_apply]
  unfold score
  congr 1
  refine Finset.sum_congr rfl fun j _ => ?_
  rw [truncf_apply, maximumf_apply, addf_apply, addf_apply, matmulA_apply, matmulA_apply, bias1_apply, broadcast_apply]
  have hz : (FloatOps.ofBits (F := Ideal) FTy.f32 0#32 : EReal) = 0 := Ideal.ofBits_zero_f32
  rw [hz]
  rfl

end Cert.KernelIdeal.Body

end
-- ==== Proof.KernelArray.lean ====
/-
  From blocks to the whole output column. Grid point `t` of 250 handles edges `4000 t … 4000 t + 3999`: it reads block
  `t` of the two gathered arrays and the whole of the small operands, and writes back block `t` of the output column
  [1000000, 1]. So what point `t` writes back is block `t` of ONE column, whose row `e` is `EdgeScore.score` of rows `e`
  of the two gathered arrays (`column`, `flushed7_eq`).
-/
import proofs.«428536_j19061064860126_1_alg».proof.Proof.Gen.KernelIdeal.Frame
import proofs.«428536_j19061064860126_1_alg».proof.Proof.KernelBody
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
  Idealize.SL.Sem Cert.EdgeScore
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The output column over any seven operand arrays: row `e` is the score of rows `e` of the two gathered arrays. -/
def columnOf (zr zc : Vec Ideal S1000000x128 .f32) (wa wb : Vec Ideal S128x128 .f32) (b1r : Vec Ideal S1x128 .f32)
    (w2c : Vec Ideal S128x1 .f32) (b2c : Vec Ideal S1x1 .f32) : S1000000x1.Idx → EReal := fun i =>
  score (fun k => zr (ix2 (i 0) k)) (fun k => zc (ix2 (i 0) k)) (fun k j => wa (ix2 k j)) (fun k j => wb (ix2 k j))
    (fun j => b1r (ix2 0 j)) (fun j => w2c (ix2 j 0)) (b2c (ix2 0 0))

/-- The output column over the operand arrays as the region finds them. -/
abbrev column (c : Dev nD) : S1000000x1.Idx → EReal :=
  columnOf (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))

/-- The stored block at any of its indices. -/
theorem block_row (x0 x1 : Vec Ideal S4000x128 .f32) (x2 x3 : Vec Ideal S128x128 .f32) (x4 : Vec Ideal S1x128 .f32)
    (x5 : Vec Ideal S128x1 .f32) (x6 : Vec Ideal S1x1 .f32) (y : S4000x1.Idx) :
    k0_pay1 (F := Ideal) x0 x1 x2 x3 x4 x5 x6 y
      = score (fun k => x0 (ix2 (y 0) k)) (fun k => x1 (ix2 (y 0) k)) (fun k j => x2 (ix2 k j)) (fun k j => x3 (ix2 k j))
          (fun j => x4 (ix2 0 j)) (fun j => x5 (ix2 j 0)) (x6 (ix2 0 0)) := by
  rw [eq_ix2 y]
  exact Cert.KernelIdeal.Body.pay_apply x0 x1 x2 x3 x4 x5 x6 (y 0) (y 1)

/-- The printed index maps over the grid: the gathered arrays and the output move one block per point along the
    edges; every other operand stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block `t` of a [1000000, 128] array through window 0: its rows `4000 t …`. -/
theorem blk0_read (A : Vec Ideal S1000000x128 .f32) (t : Fin cfg0.N) (x : S4000x128.Idx) (k : S1000000x128.Idx)
    (hk0 : (k 0).val = 4000 * t.val + (x 0).val) (hk1 : (k 1).val = (x 1).val) :
    (((cfg0.win 0).blk t).view.read (Elt Ideal) A : Vec Ideal S4000x128 .f32) x = A k := by
  obtain ⟨e0, e1, -⟩ := idx_facts t
  rw [View.read_apply]
  refine congrArg A (funext fun a => Fin.ext ?_)
  match a with
  | ⟨0, _⟩ => show win0_0.index t 0 * 4000 + 1 * (x 0).val = (k 0).val; rw [e0, hk0]; omega
  | ⟨1, _⟩ => show win0_0.index t 1 * 128 + 1 * (x 1).val = (k 1).val; rw [e1, hk1]; omega

/-- Block `t` of a [1000000, 128] array through window 1: its rows `4000 t …`. -/
theorem blk1_read (A : Vec Ideal S1000000x128 .f32) (t : Fin cfg0.N) (x : S4000x128.Idx) (k : S1000000x128.Idx)
    (hk0 : (k 0).val = 4000 * t.val + (x 0).val) (hk1 : (k 1).val = (x 1).val) :
    (((cfg0.win 1).blk t).view.read (Elt Ideal) A : Vec Ideal S4000x128 .f32) x = A k := by
  obtain ⟨-, -, e0, e1, -⟩ := idx_facts t
  rw [View.read_apply]
  refine congrArg A (funext fun a => Fin.ext ?_)
  match a with
  | ⟨0, _⟩ => show win0_1.index t 0 * 4000 + 1 * (x 0).val = (k 0).val; rw [e0, hk0]; omega
  | ⟨1, _⟩ => show win0_1.index t 1 * 128 + 1 * (x 1).val = (k 1).val; rw [e1, hk1]; omega

/-- Window 2's one block is the whole array. -/
theorem blk2_read (A : Vec Ideal S128x128 .f32) (t : Fin cfg0.N) (x : S128x128.Idx) :
    (((cfg0.win 2).blk t).view.read (Elt Ideal) A : Vec Ideal S128x128 .f32) x = A x := by
  obtain ⟨-, -, -, -, e0, e1, -⟩ := idx_facts t
  rw [View.read_apply]
  refine congrArg A (funext fun a => Fin.ext ?_)
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- Window 3's one block is the whole array. -/
theorem blk3_read (A : Vec Ideal S128x128 .f32) (t : Fin cfg0.N) (x : S128x128.Idx) :
    (((cfg0.win 3).blk t).view.read (Elt Ideal) A : Vec Ideal S128x128 .f32) x = A x := by
  obtain ⟨-, -, -, -, -, -, e0, e1, -⟩ := idx_facts t
  rw [View.read_apply]
  refine congrArg A (funext fun a => Fin.ext ?_)
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- Window 4's one block is the whole array. -/
theorem blk4_read (A : Vec Ideal S1x128 .f32) (t : Fin cfg0.N) (x : S1x128.Idx) :
    (((cfg0.win 4).blk t).view.read (Elt Ideal) A : Vec Ideal S1x128 .f32) x = A x := by
  obtain ⟨-, -, -, -, -, -, -, -, e0, e1, -⟩ := idx_facts t
  rw [View.read_apply]
  refine congrArg A (funext fun a => Fin.ext ?_)
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- Window 5's one block is the whole array. -/
theorem blk5_read (A : Vec Ideal S128x1 .f32) (t : Fin cfg0.N) (x : S128x1.Idx) :
    (((cfg0.win 5).blk t).view.read (Elt Ideal) A : Vec Ideal S128x1 .f32) x = A x := by
  obtain ⟨-, -, -, -, -, -, -, -, -, -, e0, e1, -⟩ := idx_facts t
  rw [View.read_apply]
  refine congrArg A (funext fun a => Fin.ext ?_)
  match a with
  | ⟨0, _⟩ => show win0_5.index t 0 * 128 + 1 * (x 0).val = (x 0).val; rw [e0]; omega
  | ⟨1, _⟩ => show win0_5.index t 1 * 1 + 1 * (x 1).val = (x 1).val; rw [e1]; omega

/-- Window 6's one block is the whole array. -/
theorem blk6_read (A : Vec Ideal S1x1 .f32) (t : Fin cfg0.N) (x : S1x1.Idx) :
    (((cfg0.win 6).blk t).view.read (Elt Ideal) A : Vec Ideal S1x1 .f32) x = A x := by
  obtain ⟨-, -, -, -, -, -, -, -, -, -, -, -, e0, e1, -⟩ := idx_facts t
  rw [View.read_apply]
  refine congrArg A (funext fun a => Fin.ext ?_)
  match a with
  | ⟨0, _⟩ => show win0_6.index t 0 * 1 + 1 * (x 0).val = (x 0).val; rw [e0]; omega
  | ⟨1, _⟩ => show win0_6.index t 1 * 1 + 1 * (x 1).val = (x 1).val; rw [e1]; omega

/-- The block point `t` stores, from the operands' blocks at `t`, is rows `4000 t …` of the column. -/
theorem stored_of (zr zc : Vec Ideal S1000000x128 .f32) (wa wb : Vec Ideal S128x128 .f32) (b1r : Vec Ideal S1x128 .f32)
    (w2c : Vec Ideal S128x1 .f32) (b2c : Vec Ideal S1x1 .f32) (t : Fin cfg0.N) :
    k0_pay1 (F := Ideal) (((cfg0.win 0).blk t).view.read (Elt Ideal) zr) (((cfg0.win 1).blk t).view.read (Elt Ideal) zc)
        (((cfg0.win 2).blk t).view.read (Elt Ideal) wa) (((cfg0.win 3).blk t).view.read (Elt Ideal) wb)
        (((cfg0.win 4).blk t).view.read (Elt Ideal) b1r) (((cfg0.win 5).blk t).view.read (Elt Ideal) w2c)
        (((cfg0.win 6).blk t).view.read (Elt Ideal) b2c)
      = fun y : S4000x1.Idx => columnOf zr zc wa wb b1r w2c b2c (ix2 ⟨4000 * t.val + (y 0).val, by
          have hN : cfg0.N = 250 := N_0
          have := t.isLt; have hy : (y 0).val < 4000 := (y 0).isLt; omega⟩ 0) := by
  funext y
  refine (block_row _ _ _ _ _ _ _ y).trans ?_
  unfold columnOf
  exact score_congr (fun k => blk0_read zr t _ _ rfl rfl) (fun k => blk1_read zc t _ _ rfl rfl)
    (fun k j => blk2_read wa t _) (fun k j => blk3_read wb t _) (fun j => blk4_read b1r t _)
    (fun j => blk5_read w2c t _) (blk6_read b2c t _)

end Cert.KernelIdeal.Blocks

end
-- ==== Proof.KernelFlush.lean ====
/-
  What a grid point writes back. Point `t` stores, from the operands' blocks at `t`, rows `4000 t …` of the output
  column (`Blocks.stored_of`), and the write-back window's block at `t` is exactly those rows: so every write-back is a
  block of the ONE column `Blocks.column`.
-/
import proofs.«428536_j19061064860126_1_alg».proof.Proof.KernelArray

set_option maxRecDepth 16384

noncomputable section

namespace Cert.KernelIdeal.Blocks

open Cert.KernelIdeal Cert.KernelIdeal.Gen Idealize.ShloMosaic Idealize.ShloMosaic.TcCoe Idealize.ShloMosaic.ValueIdx
  Idealize.SL.Sem Cert.EdgeScore
open Idealize.ShloMosaic.Pipeline (Dat Cfg Window)

variable (m : (ℓ : Loc nD τ sig) → Buf (Elt Ideal) ℓ)

/-- What point `t` writes back is block `t` of the column. -/
theorem flushed7_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero hz]
  simp only [View.ld_unit_zero (S := S4000x128) hz, View.ld_unit_zero (S := S128x128) hz, View.ld_unit_zero (S := S1x128) hz,
    View.ld_unit_zero (S := S128x1) hz, View.ld_unit_zero (S := S1x1) hz]
  unfold iblk
  rw [stored_of]
  obtain ⟨-, -, -, -, -, -, -, -, -, -, -, -, -, -, e70, e71⟩ := idx_facts t
  funext y
  rw [View.read_apply]
  refine Eq.trans ?_ (cast_eq _ _).symm
  refine congrArg (columnOf _ _ _ _ _ _ _) (funext fun a => Fin.ext ?_)
  match a with
  | ⟨0, _⟩ => show 4000 * t.val + (y 0).val = win0_7.index t 0 * 4000 + 1 * (y 0).val; rw [e70]; omega
  | ⟨1, _⟩ => show 0 = win0_7.index t 1 * 1 + 1 * (y 1).val; rw [e71]; have h1 : (y 1).val < 1 := (y 1).isLt; omega

end Cert.KernelIdeal.Blocks

end
-- ==== Proof.IndexWords.lean ====
/-
  Index words. An endpoint index is a signed 32-bit word `x`. Both programs first wrap a negative index once,
  `y = if x < 0 then x + 100000 else x` (NumPy's reading of a negative index into an axis of extent 100000). When
  `-100000 ≤ x < 100000` the wrapped word lies in `[0, 99999]`, which is the test the kernel's `take` applies before
  it keeps a gathered row (`wrapped_in_range`). And a reduction by `and` from `1` over words that are all `1` is `1`
  (`reduce_andi_of_all`): the kernel's keep-mask is all ones.
-/
import Idealize.ShloMosaic.Lib.ReduceAll

namespace Cert.IndexWords

open Idealize.ShloMosaic

/-- The wrapped index is in `[0, 99999]` when the index is in `[-100000, 100000)`. -/
theorem wrapped_in_range (x : BitVec 32) (h1 : IntOp.cmpi .sge x 4294867296#32 = 1#1) (h2 : IntOp.cmpi .slt x 100000#32 = 1#1) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  rw [IntOp.cmpi_sge] at h1
  rw [IntOp.cmpi_slt] at h2
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at h1
  rw [e2] at h2
  rw [IntOp.andi_eq_one, IntOp.cmpi_sge, IntOp.cmpi_sle, e3, e4]
  unfold Scalar.select
  split
  · next hn =>
    have hn : IntOp.cmpi .slt x 0#32 = 1#1 := hn
    rw [IntOp.cmpi_slt, e3] at hn
    have e5 : (IntOp.addi x 100000#32).toInt = x.toInt + 100000 := by
      show (x + 100000#32).toInt = _
      rw [BitVec.toInt_add, e2]
      simp only [Int.bmod, Nat.reducePow, Nat.cast_ofNat]
      split <;> omega
    rw [e5]
    omega
  · next hn =>
    have hn : ¬ IntOp.cmpi .slt x 0#32 = 1#1 := hn
    rw [IntOp.cmpi_slt, e3] at hn
    omega

/-- A left fold by `and` from `1` over words that are all `1` is `1`. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- A `stablehlo.reduce` by `and` from the initial value `1` of an array of ones is `1` at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hall : ∀ i, x i = 1#1) (j : t.Idx) :
    Host.reduce IntOp.andi x init h hu j = 1#1 := by
  rw [Host.reduce_eq_foldl, hinit]
  exact foldl_andi_one x _ (fun n _ => hall n)

end Cert.IndexWords
-- ==== Proof.KernelPrefix.lean ====
/-
  The arrays as the kernel's region finds them, after the host operations that precede it.

  Operands 0 and 1 are `jnp.take`s of the embedding table at rows 0 and 1 of the index table: a negative word is
  wrapped once, the table's rows are gathered at the wrapped words, and a row whose wrapped word is outside
  `[0, 99999]` is replaced by a fill value. Under the index range no row is replaced (`IndexWords.wrapped_in_range`),
  so each operand is the plain gather. Operands 2 and 3 are the transposed left and right halves of the first layer,
  operand 5 the transposed second layer, operands 4 and 6 the biases as a row and as a single cell.
-/
import proofs.«428536_j19061064860126_1_alg».proof.Proof.Gen.KernelIdeal.Frame
import proofs.«428536_j19061064860126_1_alg».proof.Proof.IndexWords
import Idealize.ShloMosaic.Lib.StableHlo.Run
import Idealize.ShloMosaic.Lib.Pipeline.Value
import Idealize.ShloMosaic.Lib.ValueIdx

set_option maxRecDepth 16384

noncomputable section

namespace Cert.KernelIdeal.Prefix

open Cert.KernelIdeal Cert.KernelIdeal.Gen Idealize.ShloMosaic Idealize.ShloMosaic.TcCoe Idealize.ShloMosaic.StableHlo
  Idealize.ShloMosaic.ValueIdx Idealize.SL.Sem

variable (m : (ℓ : Loc nD τ sig) → Buf (Elt Ideal) ℓ)

/-- The column of wrapped start words of row 0 of the index table. -/
def wrapped0 (x1 : IVec S2x1000000 32) : IVec S1000000x1 32 :=
  broadcastInDim S1000000x1 ![0] bcast_S1000000_S1000000x1_0
    (select (cmpi .slt (shapeCast _ (extractStridedSlice S1x1000000 ![0, 0] x1 slices_S2x1000000_S1x1000000_0_0) shapeCasts_S1x1000000_S1000000) (broadcastInDim S1000000 ![] bcast_S_S1000000 (constantI S_ 32 0#32)))
      (addi (shapeCast _ (extractStridedSlice S1x1000000 ![0, 0] x1 slices_S2x1000000_S1x1000000_0_0) shapeCasts_S1x1000000_S1000000) (broadcastInDim S1000000 ![] bcast_S_S1000000 (constantI S_ 32 100000#32)))
      (shapeCast _ (extractStridedSlice S1x1000000 ![0, 0] x1 slices_S2x1000000_S1x1000000_0_0) shapeCasts_S1x1000000_S1000000))
/-- The column of wrapped start words of row 1 of the index table. -/
def wrapped1 (x1 : IVec S2x1000000 32) : IVec S1000000x1 32 :=
  broadcastInDim S1000000x1 ![0] bcast_S1000000_S1000000x1_0
    (select (cmpi .slt (shapeCast _ (extractStridedSlice S1x1000000 ![1, 0] x1 slices_S2x1000000_S1x1000000_1_0) shapeCasts_S1x1000000_S1000000) (broadcastInDim S1000000 ![] bcast_S_S1000000 (constantI S_ 32 0#32)))
      (addi (shapeCast _ (extractStridedSlice S1x1000000 ![1, 0] x1 slices_S2x1000000_S1x1000000_1_0) shapeCasts_S1x1000000_S1000000) (broadcastInDim S1000000 ![] bcast_S_S1000000 (constantI S_ 32 100000#32)))
      (shapeCast _ (extractStridedSlice S1x1000000 ![1, 0] x1 slices_S2x1000000_S1x1000000_1_0) shapeCasts_S1x1000000_S1000000))

/-- A select on a mask of ones is its first operand. -/
theorem select_ones {s : Shape} {α : Type} (b : IVec s 1) (x y : s.Idx → α) (h : ∀ i, b i = 1#1) : select b x y = x := by
  funext i
  rw [select_apply, h i]
  exact select_one _ _

/-- Contents carried to a buffer's type and back are the contents. -/
theorem ofBuf_toBuf {T : BufTy} (x : TRef sig T) (v : T.Contents (Elt Ideal)) : x.ofBuf (x.toBuf v) = v := by
  obtain ⟨r, h, a, b⟩ := x
  subst h
  rfl

/-- Under the index range the keep-mask of `take` is all ones, so the region finds operand 0 at the plain row gather of the
    embedding table at the wrapped words of row 0 of the index table. -/
theorem V_main_v4 (c : Dev nD)
    (hr : ∀ j, IntOp.cmpi .sge (m ((c : Thread nD τ).loc main_arg1) j) 4294867296#32 = 1#1 ∧ IntOp.cmpi .slt (m ((c : Thread nD τ).loc main_arg1) j) 100000#32 = 1#1) :
    (V m c main_v4 : S1000000x128.Idx → EReal)
      = Host.gather gather_S100000x128_S1000000x1_S1000000x128_1_0_n_n_0_1_1128 (m ((c : Thread nD τ).loc main_arg0)) (wrapped0 (m ((c : Thread nD τ).loc main_arg1))) := by
  dsimp only [V, V0]
  simp only [hostOps0, hostOps0_1, hostOps0_2, hostOps0_3, List.flatten_cons, List.flatten_nil, List.append_nil, List.cons_append, List.nil_append]
  after_results_simp
  simp only [ofBuf_toBuf]
  refine (cast_eq _ _).trans ?_
  refine (select_ones _ _ _ (fun i => ?_)).trans ?_
  · show Host.reduce IntOp.andi _ _ _ _ _ = 1#1
    refine Cert.IndexWords.reduce_andi_of_all _ _ _ _ rfl (fun k => ?_) _
    show IntOp.andi (IntOp.cmpi .sge _ 0#32) (IntOp.cmpi .sle _ 99999#32) = 1#1
    exact Cert.IndexWords.wrapped_in_range _ (hr _).1 (hr _).2
  · rfl

/-- Under the index range the keep-mask of `take` is all ones, so the region finds operand 1 at the plain row gather of the
    embedding table at the wrapped words of row 1 of the index table. -/
theorem V_main_v5 (c : Dev nD)
    (hr : ∀ j, IntOp.cmpi .sge (m ((c : Thread nD τ).loc main_arg1) j) 4294867296#32 = 1#1 ∧ IntOp.cmpi .slt (m ((c : Thread nD τ).loc main_arg1) j) 100000#32 = 1#1) :
    (V m c main_v5 : S1000000x128.Idx → EReal)
      = Host.gather gather_S100000x128_S1000000x1_S1000000x128_1_0_n_n_0_1_1128 (m ((c : Thread nD τ).loc main_arg0)) (wrapped1 (m ((c : Thread nD τ).loc main_arg1))) := by
  dsimp only [V, V0]
  simp only [hostOps0, hostOps0_1, hostOps0_2, hostOps0_3, List.flatten_cons, List.flatten_nil, List.append_nil, List.cons_append, List.nil_append]
  after_results_simp
  simp only [ofBuf_toBuf]
  refine (cast_eq _ _).trans ?_
  refine (select_ones _ _ _ (fun i => ?_)).trans ?_
  · show Host.reduce IntOp.andi _ _ _ _ _ = 1#1
    refine Cert.IndexWords.reduce_andi_of_all _ _ _ _ rfl (fun k => ?_) _
    show IntOp.andi (IntOp.cmpi .sge _ 0#32) (IntOp.cmpi .sle _ 99999#32) = 1#1
    exact Cert.IndexWords.wrapped_in_range _ (hr _).1 (hr _).2
  · rfl
/-- Operand 2: the left half of the first layer, transposed. -/
theorem V_main_v7_apply (c : Dev nD) (k j : Fin 128) :
    (V m c main_v7 : S128x128.Idx → EReal) (ix2 k j) = m ((c : Thread nD τ).loc main_arg2) (ix2 j ⟨k.val, by omega⟩) := by
  have e : (V m c main_v7 : S128x128.Idx → EReal)
      = transpose S128x128 [1, 0] (extractStridedSlice S128x128 ![0, 0] (m ((c : Thread nD τ).loc main_arg2)) slices_S128x256_S128x128_0_0) transposes_S128x128_S128x128_1_0 := by
    dsimp only [V, V0]
    simp only [hostOps0, hostOps0_1, hostOps0_2, hostOps0_3, List.flatten_cons, List.flatten_nil, List.append_nil, List.cons_append, List.nil_append]
    after_results_simp <;> rfl
  rw [e, transpose_apply [1, 0] _ transposes_S128x128_S128x128_1_0 (ix2 k j) (ix2 j k) (fun b => match b with
      | ⟨0, _⟩ => rfl
      | ⟨1, _⟩ => rfl),
    extractStridedSlice_apply ![0, 0] _ slices_S128x256_S128x128_0_0 (ix2 j k) (ix2 j ⟨k.val, by omega⟩) (fun a => match a with
      | ⟨0, _⟩ => by show j.val = 0 + j.val; omega
      | ⟨1, _⟩ => by show k.val = 0 + k.val; omega)]

/-- Operand 3: the right half of the first layer, transposed. -/
theorem V_main_v9_apply (c : Dev nD) (k j : Fin 128) :
    (V m c main_v9 : S128x128.Idx → EReal) (ix2 k j) = m ((c : Thread nD τ).loc main_arg2) (ix2 j ⟨128 + k.val, by omega⟩) := by
  have e : (V m c main_v9 : S128x128.Idx → EReal)
      = transpose S128x128 [1, 0] (extractStridedSlice S128x128 ![0, 128] (m ((c : Thread nD τ).loc main_arg2)) slices_S128x256_S128x128_0_128) transposes_S128x128_S128x128_1_0 := by
    dsimp only [V, V0]
    simp only [hostOps0, hostOps0_1, hostOps0_2, hostOps0_3, List.flatten_cons, List.flatten_nil, List.append_nil, List.cons_append, List.nil_append]
    after_results_simp <;> rfl
  rw [e, transpose_apply [1, 0] _ transposes_S128x128_S128x128_1_0 (ix2 k j) (ix2 j k) (fun b => match b with
      | ⟨0, _⟩ => rfl
      | ⟨1, _⟩ => rfl),
    extractStridedSlice_apply ![0, 128] _ slices_S128x256_S128x128_0_128 (ix2 j k) (ix2 j ⟨128 + k.val, by omega⟩) (fun a => match a with
      | ⟨0, _⟩ => by show j.val = 0 + j.val; omega
      | ⟨1, _⟩ => by show 128 + k.val = 128 + k.val; omega)]

/-- Operand 5: the second layer as a column. -/
theorem V_main_v10_apply (c : Dev nD) (j : Fin 128) :
    (V m c main_v10 : S128x1.Idx → EReal) (ix2 j 0) = m ((c : Thread nD τ).loc main_arg4) (ix2 0 j) := by
  have e : (V m c main_v10 : S128x1.Idx → EReal)
      = transpose S128x1 [1, 0] (m ((c : Thread nD τ).loc main_arg4)) transposes_S1x128_S128x1_1_0 := by
    dsimp only [V, V0]
    simp only [hostOps0, hostOps0_1, hostOps0_2, hostOps0_3, List.flatten_cons, List.flatten_nil, List.append_nil, List.cons_append, List.nil_append]
    after_results_simp <;> rfl
  rw [e, transpose_apply [1, 0] _ transposes_S1x128_S128x1_1_0 (ix2 j 0) (ix2 0 j) (fun b => match b with
      | ⟨0, _⟩ => rfl
      | ⟨1, _⟩ => rfl)]

/-- Operand 4: the first bias as a row. -/
theorem V_main_v11_apply (c : Dev nD) (j : Fin 128) :
    (V m c main_v11 : S1x128.Idx → EReal) (ix2 0 j) = m ((c : Thread nD τ).loc main_arg3) (ix1 j) := by
  have e : (V m c main_v11 : S1x128.Idx → EReal)
      = shapeCast S1x128 (m ((c : Thread nD τ).loc main_arg3)) shapeCasts_S128_S1x128 := by
    dsimp only [V, V0]
    simp only [hostOps0, hostOps0_1, hostOps0_2, hostOps0_3, List.flatten_cons, List.flatten_nil, List.append_nil, List.cons_append, List.nil_append]
    after_results_simp <;> rfl
  rw [e, shapeCast_apply _ shapeCasts_S128_S1x128 (ix2 0 j) (ix1 j) (by
    rewrite [Shape.rowMajor_val_two, Shape.rowMajor_val_one]; show j.val = 0 * 128 + j.val; omega)]

/-- Operand 6: the second bias as a single cell. -/
theorem V_main_v12_apply (c : Dev nD) :
    (V m c main_v12 : S1x1.Idx → EReal) (ix2 0 0) = m ((c : Thread nD τ).loc main_arg5) (ix1 0) := by
  have e : (V m c main_v12 : S1x1.Idx → EReal)
      = shapeCast S1x1 (m ((c : Thread nD τ).loc main_arg5)) shapeCasts_S1_S1x1 := by
    dsimp only [V, V0]
    simp only [hostOps0, hostOps0_1, hostOps0_2, hostOps0_3, List.flatten_cons, List.flatten_nil, List.append_nil, List.cons_append, List.nil_append]
    after_results_simp <;> rfl
  rw [e, shapeCast_apply _ shapeCasts_S1_S1x1 (ix2 0 0) (ix1 0) (by
    rewrite [Shape.rowMajor_val_two, Shape.rowMajor_val_one]; rfl)]

end Cert.KernelIdeal.Prefix

end
-- ==== Proof.KernelRun.lean ====
/-
  The kernel's run, read. The output column's blocks tile it (row `e` is in the block of point `e / 4000`), so after
  the region the column holds the score of every edge (`final7`); the one host operation after the region lays the
  column [1000000, 1] out as the result vector [1000000]. With the arrays the region found written through the host
  operations before it, the result at edge `e` is the score of the two gathered rows of `e` against the two halves of
  the first layer, the biases and the second layer (`result`, `run`).
-/
import proofs.«428536_j19061064860126_1_alg».proof.Proof.KernelFlush
import proofs.«428536_j19061064860126_1_alg».proof.Proof.KernelPrefix
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx
  Idealize.ShloMosaic.StableHlo Idealize.SL.Sem Cert.EdgeScore Cert.KernelIdeal.Blocks Cert.KernelIdeal.Prefix
open Idealize.ShloMosaic.Pipeline (Dat Cfg Window)

variable (m : (ℓ : Loc nD τ sig) → Buf (Elt Ideal) ℓ) (ρ : Dev nD → PrngReg)

/-- An index of the column is in point `t`'s block iff each coordinate is in the block's range on its axis. -/
theorem mem_blk7 (t : Fin cfg0.N) (i : S1000000x1.Idx) :
    i ∈ ((cfg0.win 7).blk t).view.set ↔ ∀ a : Fin 2, win0_7.index t a * S4000x1.size a ≤ (i a).val ∧ (i a).val < win0_7.index t a * S4000x1.size a + S4000x1.size a := by
  show i ∈ ((View.whole main_v13).slice (win0_7.rect t)).set ↔ _
  rw [View.set_slice_whole, Rect.mem_set_unit]
  exact Iff.rfl

/-- After the region the output column holds every edge's score. -/
theorem final7 (c : Dev nD) : (dats m 0 c).arrAt 7 cfg0.N = column m c :=
  (dats m 0 c).arrAt_eq_of_cover 7 (column m c) (fun t _ => flushed7_eq m c t) (fun i => by
    have hN : cfg0.N = 250 := N_0
    have hi0 : (i 0).val < 1000000 := (i 0).isLt
    have hi1 : (i 1).val < 1 := (i 1).isLt
    obtain ⟨t, ht⟩ : ∃ t : Fin cfg0.N, t.val = (i 0).val / 4000 := ⟨⟨(i 0).val / 4000, by rw [hN]; omega⟩, rfl⟩
    obtain ⟨-, -, -, -, -, -, -, -, -, -, -, -, -, -, e70, e71⟩ := idx_facts t
    refine ⟨t, flush0_7 t, ?_⟩
    rw [mem_blk7]
    intro a
    match a with
    | ⟨0, _⟩ => show win0_7.index t 0 * 4000 ≤ (i 0).val ∧ (i 0).val < win0_7.index t 0 * 4000 + 4000; rw [e70, ht]; omega
    | ⟨1, _⟩ => show win0_7.index t 1 * 1 ≤ (i 1).val ∧ (i 1).val < win0_7.index t 1 * 1 + 1; rw [e71]; omega)

/-- The kernel's result as one function of the launch contents: at edge `e` the score of the rows gathered at the two
    wrapped endpoint words of `e`. -/
def result (x0 : Vec Ideal S100000x128 .f32) (x1 : IVec S2x1000000 32) (x2 : Vec Ideal S128x256 .f32) (x3 : Vec Ideal S128 .f32)
    (x4 : Vec Ideal S1x128 .f32) (x5 : Vec Ideal S1 .f32) : S1000000.Idx → EReal := fun i =>
  score (fun k => Host.gather gather_S100000x128_S1000000x1_S1000000x128_1_0_n_n_0_1_1128 x0 (wrapped0 x1) (ix2 (i 0) k))
    (fun k => Host.gather gather_S100000x128_S1000000x1_S1000000x128_1_0_n_n_0_1_1128 x0 (wrapped1 x1) (ix2 (i 0) k))
    (fun k j => x2 (ix2 j ⟨k.val, by omega⟩)) (fun k j => x2 (ix2 j ⟨128 + k.val, by omega⟩))
    (fun j => x3 (ix1 j)) (fun j => x4 (ix2 0 j)) (x5 (ix1 0))

/-- Row `e` of the column, with the operands written through the host operations before the region. -/
theorem column_eq (c : Dev nD)
    (hr : ∀ j, IntOp.cmpi .sge (m ((c : Thread nD τ).loc main_arg1) j) 4294867296#32 = 1#1 ∧ IntOp.cmpi .slt (m ((c : Thread nD τ).loc main_arg1) j) 100000#32 = 1#1)
    (e : Fin 1000000) :
    column m c (ix2 e 0) = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix1 e) := by
  unfold column columnOf result
  exact score_congr (fun k => congrFun (V_main_v4 m c hr) _) (fun k => congrFun (V_main_v5 m c hr) _)
    (fun k j => V_main_v7_apply m c k j) (fun k j => V_main_v9_apply m c k j) (fun j => V_main_v11_apply m c j)
    (fun j => V_main_v10_apply m c j) (V_main_v12_apply m c)

/-- The one host operation after the region lays the column out as a vector, whatever the buffers hold. -/
theorem tail_of (W : Valuation τ sig (Elt Ideal)) :
    StableHlo.after hostOps1 W (Proc.devRef .tc main_v14)
      = shapeCast S1000000 (W (Proc.devRef .tc main_v13)) shapeCasts_S1000000x1_S1000000 := by
  after_results
  rfl

/-- The result vector after the host operation that follows the region. -/
theorem tail_eq (c : Dev nD)
    (hr : ∀ j, IntOp.cmpi .sge (m ((c : Thread nD τ).loc main_arg1) j) 4294867296#32 = 1#1 ∧ IntOp.cmpi .slt (m ((c : Thread nD τ).loc main_arg1) j) 100000#32 = 1#1) :
    Pipeline.afterTail₀ cfgs (dats m) 0 (V0 m) [hostOps1] c main_v14
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v14) = _
  refine (tail_of _).trans ?_
  refine (congrArg (fun X => shapeCast S1000000 X shapeCasts_S1000000x1_S1000000)
    ((Pipeline.withArrays_arr spec0 launch0.win.arr_inj c _ _ 7).trans (final7 m c))).trans ?_
  funext i
  obtain ⟨e, rfl⟩ : ∃ e : Fin 1000000, i = ix1 e := ⟨i 0, eq_ix1 i⟩
  rw [shapeCast_apply _ shapeCasts_S1000000x1_S1000000 (ix1 e) (ix2 e 0) (by
    rewrite [Shape.rowMajor_val_two, Shape.rowMajor_val_one]; show e.val * 1 + 0 = e.val; omega)]
  exact column_eq m c hr e

/-- THE KERNEL'S RUN: under the index range every weakly fair execution terminates with the result vector at every
    edge's score and the arguments unchanged. -/
theorem run (hr : ∀ (c : Dev nD) j, IntOp.cmpi .sge (m ((c : Thread nD τ).loc main_arg1) j) 4294867296#32 = 1#1 ∧ IntOp.cmpi .slt (m ((c : Thread nD τ).loc main_arg1) j) 100000#32 = 1#1) :
    θ_run defs (onTc (τ := τ) (main (F := Ideal))) ⟨m, fun _ => 0, ρ⟩ fun r => ∀ c : Dev nD,
      r.2.mem ((c : Thread nD τ).loc main_v14)
          = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).2 main_v14 (Pipeline.mem_restRefs_of main_v14 (by decide) (by decide))).trans (tail_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference's result at an edge. The reference gathers the two endpoint rows, joins them into one row of 256,
  multiplies by the transposed first layer, adds the bias, clamps at zero, multiplies by the transposed second layer
  and adds the second bias. Read at edge `e`, with the sum over the 256 joined positions cut into its two halves
  (`EdgeScore.sum_two_halves`) and each half of the joined row read from the gathered row it came from, this is
  `EdgeScore.score` of the two gathered rows.
-/
import proofs.«428536_j19061064860126_1_alg».proof.Proof.Gen.ReferenceIdeal.Read
import proofs.«428536_j19061064860126_1_alg».proof.Proof.EdgeScore

noncomputable section

namespace Cert.ReferenceIdeal.RefValue

open Cert.ReferenceIdeal Cert.ReferenceIdeal.Gen Cert.ReferenceIdeal.Read Idealize.ShloMosaic Idealize.ShloMosaic.ValueIdx
  Cert.EdgeScore

/-- The first 128 positions of a joined row are the first row's. -/
theorem joined_left (a b : S1000000x128.Idx → EReal) (e : Fin 1000000) (k : Fin 128) :
    concatenate S1000000x256 1 [⟨S1000000x128, a⟩, ⟨S1000000x128, b⟩] concatenates_S1000000x128_S1000000x128_S1000000x256_d1
      (ix2 e ⟨k.val, by omega⟩) = a (ix2 e k) :=
  concatenate_pair_apply_left 1 a b concatenates_S1000000x128_S1000000x128_S1000000x256_d1 (ix2 e ⟨k.val, by omega⟩) rfl (ix2 e k)
    (fun c => match c with
      | ⟨0, _⟩ => rfl
      | ⟨1, _⟩ => rfl)

/-- The last 128 positions of a joined row are the second row's. -/
theorem joined_right (a b : S1000000x128.Idx → EReal) (e : Fin 1000000) (k : Fin 128) :
    concatenate S1000000x256 1 [⟨S1000000x128, a⟩, ⟨S1000000x128, b⟩] concatenates_S1000000x128_S1000000x128_S1000000x256_d1
      (ix2 e ⟨128 + k.val, by omega⟩) = b (ix2 e k) :=
  concatenate_pair_apply_right 1 a b concatenates_S1000000x128_S1000000x128_S1000000x256_d1 (ix2 e ⟨128 + k.val, by omega⟩) rfl rfl (ix2 e k)
    (fun c hc => match c, hc with
      | ⟨0, _⟩, _ => rfl
      | ⟨1, _⟩, hc => absurd rfl hc)
    (by show k.val + 128 = 128 + k.val; omega)

/-- The reference's result at edge `e` is the score of the two gathered rows. -/
theorem result_apply (x0 : (⟨S100000x128, .f32⟩ : BufTy).Contents (Elt Ideal)) (x1 : (⟨S2x1000000, .i32⟩ : BufTy).Contents (Elt Ideal))
    (x2 : (⟨S128x256, .f32⟩ : BufTy).Contents (Elt Ideal)) (x3 : (⟨S128, .f32⟩ : BufTy).Contents (Elt Ideal))
    (x4 : (⟨S1x128, .f32⟩ : BufTy).Contents (Elt Ideal)) (x5 : (⟨S1, .f32⟩ : BufTy).Contents (Elt Ideal)) (e : Fin 1000000) :
    val_main_v30 (F := Ideal) x0 x1 x2 x3 x4 x5 (ix1 e)
      = score (fun k => val_main_v10 (F := Ideal) x0 x1 (ix2 e k)) (fun k => val_main_v17 (F := Ideal) x0 x1 (ix2 e k))
          (fun k j => x2 (ix2 j ⟨k.val, by omega⟩)) (fun k j => x2 (ix2 j ⟨128 + k.val, by omega⟩))
          (fun j => x3 (ix1 j)) (fun j => x4 (ix2 0 j)) (x5 (ix1 0)) := by
  rw [val_main_v30_apply, val_main_v29_apply, val_main_v26_apply, val_main_v28_apply, val_main_v27_apply]
  unfold score
  show (∑ k : Fin 128, _) + _ = _
  congr 1
  · refine Finset.sum_congr rfl fun j _ => ?_
    have hl : lidx_main_v26 (idx_main_v30 (ix1 e)) j = ix2 e j := funext fun a => Fin.ext (by
      match a with
      | ⟨0, _⟩ => show e.val / 1 = e.val; omega
      | ⟨1, _⟩ => rfl)
    rw [hl, val_main_v24_apply, val_main_v23_apply, val_main_v20_apply, val_main_v22_apply, val_main_v21_apply, val_main_v25_apply,
      val_main_call0_v0_apply, val_main_call0_cst_apply, sum_two_halves]
    have hz : (FloatOps.ofBits (F := Ideal) FTy.f32 0#32 : EReal) = 0 := Ideal.ofBits_zero_f32
    have h3 : idx_main_v21 (idx_main_v22 (ix2 e j)) = ix1 j := funext fun a => Fin.ext (by
      match a with
      | ⟨0, _⟩ => rfl)
    have h4 : idx_main_v25 (ridx_main_v26 (idx_main_v30 (ix1 e)) j) = ix2 0 j := funext fun a => Fin.ext (by
      match a with
      | ⟨0, _⟩ => rfl
      | ⟨1, _⟩ => rfl)
    have hL : ∀ k : Fin 128, val_main_v18 (F := Ideal) x0 x1 (lidx_main_v20 (ix2 e j) ⟨k.val, by omega⟩)
          * val_main_v19 (F := Ideal) x2 (ridx_main_v20 (ix2 e j) ⟨k.val, by omega⟩)
        = val_main_v10 (F := Ideal) x0 x1 (ix2 e k) * x2 (ix2 j ⟨k.val, by omega⟩) := fun k => by
      have a1 : lidx_main_v20 (ix2 e j) ⟨k.val, by omega⟩ = ix2 e ⟨k.val, by omega⟩ := funext fun a => Fin.ext (by
        match a with
        | ⟨0, _⟩ => rfl
        | ⟨1, _⟩ => rfl)
      have a2 : idx_main_v19 (ridx_main_v20 (ix2 e j) ⟨k.val, by omega⟩) = ix2 j ⟨k.val, by omega⟩ := funext fun a => Fin.ext (by
        match a with
        | ⟨0, _⟩ => rfl
        | ⟨1, _⟩ => rfl)
      rw [val_main_v19_apply, a1, a2]
      unfold val_main_v18
      rw [joined_left]
    have hR : ∀ k : Fin 128, val_main_v18 (F := Ideal) x0 x1 (lidx_main_v20 (ix2 e j) ⟨128 + k.val, by omega⟩)
          * val_main_v19 (F := Ideal) x2 (ridx_main_v20 (ix2 e j) ⟨128 + k.val, by omega⟩)
        = val_main_v17 (F := Ideal) x0 x1 (ix2 e k) * x2 (ix2 j ⟨128 + k.val, by omega⟩) := fun k => by
      have a1 : lidx_main_v20 (ix2 e j) ⟨128 + k.val, by omega⟩ = ix2 e ⟨128 + k.val, by omega⟩ := funext fun a => Fin.ext (by
        match a with
        | ⟨0, _⟩ => rfl
        | ⟨1, _⟩ => rfl)
      have a2 : idx_main_v19 (ridx_main_v20 (ix2 e j) ⟨128 + k.val, by omega⟩) = ix2 j ⟨128 + k.val, by omega⟩ := funext fun a => Fin.ext (by
        match a with
        | ⟨0, _⟩ => rfl
        | ⟨1, _⟩ => rfl)
      rw [val_main_v19_apply, a1, a2]
      unfold val_main_v18
      rw [joined_right]
    rw [h3, h4, hz, Finset.sum_congr rfl (fun k _ => hL k), Finset.sum_congr rfl (fun k _ => hR k)]
    rfl
  · exact congrArg x5 (funext fun a => Fin.ext (by
      match a with
      | ⟨0, _⟩ => rfl))

end Cert.ReferenceIdeal.RefValue

end
-- ==== Proof.PreRange.lean ====
/-
  What the precondition says of the endpoint indices. Beside the finiteness of the float inputs the precondition
  asks that every word of the index table lies in `[-100000, 100000)`: the range in which indexing an axis of extent
  100000 is defined (a negative index counts from the end). The printed predicate is a conjunction of `jnp.all`s;
  its last conjunct, read back element by element, is the pair of signed comparisons on each index word.
-/
import proofs.«428536_j19061064860126_1_alg».proof.Pre_finite_inputs
import Idealize.ShloMosaic.Lib.ReduceAll
import Idealize.ShloMosaic.Lib.ValueIdx

noncomputable section

namespace Cert.PreRange

open Idealize.ShloMosaic Cert.Pre_finite_inputs

variable [Cert.Pre_finite_inputs.Facts]

/-- Under the precondition every index word is at least `-100000` and below `100000`, read signed. -/
theorem index_range {F : FTy → Type} [FloatOps F] (a0 : FVec F S100000x128 .f32) (a1 : IVec S2x1000000 32)
    (a2 : FVec F S128x256 .f32) (a3 : FVec F S128 .f32) (a4 : FVec F S1x128 .f32) (a5 : FVec F S1 .f32)
    (h : fn (F := F) a0 a1 a2 a3 a4 a5 = fun _ => 1#1) (j : S2x1000000.Idx) :
    IntOp.cmpi .sge (a1 j) 4294867296#32 = 1#1 ∧ IntOp.cmpi .slt (a1 j) 100000#32 = 1#1 := by
  have h0 := congrFun h ValueIdx.ix0
  dsimp only [fn, fn_part1] at h0
  have h1 := (IntOp.andi_eq_one.1 h0).2
  haveI : Subsingleton S_.Idx := ⟨fun a b => funext fun d => d.elim0⟩
  have h2 := Host.reduce_andi_all _ _ _ _ _ h1 j
  exact IntOp.andi_eq_one.1 h2

end Cert.PreRange

end
-- ==== Proof.lean ====
/-
  The certificate: an edge decoder — gather the two endpoint embeddings of each of 1,000,000 edges, score the pair
  with a two-layer perceptron — as a Pallas kernel against its jnp reference.

  The kernel gathers the endpoint rows on the host with `jnp.take`, cuts the first layer into the half that meets
  the first endpoint and the half that meets the second, and scores 4000 edges per grid point as
  `relu (zr · W1a + zc · W1b + b1) · W2 + b2`. The reference joins the two rows and takes one product with the whole
  first layer. At the extended reals the two are one function of the inputs: the sum over the 256 joined positions is
  the sum over its two halves (`EdgeScore.sum_two_halves`), and nothing else separates them. The one place the
  programs differ is outside the index range: `jnp.take` fills a row whose index is out of range where the reference's
  `z[idx]` clamps it, so the statement carries the evident domain of the reference's indexing, every index word in
  `[-100000, 100000)` (a negative index counts from the end in both programs); under it the kernel's keep-mask is all
  ones (`Prefix.V_main_v4`). Finiteness of the float inputs is not used.

  Kernel side: the stored block at a row (`Body.pay_apply`), every write-back a block of one column
  (`Blocks.flushed7_eq`), the column after the run and the result vector after the closing reshape (`Result.run`).
  Reference side: the generated run, read one operation at a time down to the same score (`RefValue.result_apply`).
  The three frames are the generated ones; the idealization rewrote nothing, so `preserves` is trivial.
-/
import proofs.«428536_j19061064860126_1_alg».proof.Defs
import proofs.«428536_j19061064860126_1_alg».proof.Proof.Gen.Kernel
import proofs.«428536_j19061064860126_1_alg».proof.Proof.Gen.Kernel.Skeleton
import proofs.«428536_j19061064860126_1_alg».proof.Proof.Gen.Kernel.Launch
import proofs.«428536_j19061064860126_1_alg».proof.Proof.Gen.Kernel.Points
import proofs.«428536_j19061064860126_1_alg».proof.Proof.Gen.Kernel.Frame
import proofs.«428536_j19061064860126_1_alg».proof.Proof.Gen.KernelIdeal
import proofs.«428536_j19061064860126_1_alg».proof.Proof.Gen.KernelIdeal.Skeleton
import proofs.«428536_j19061064860126_1_alg».proof.Proof.Gen.KernelIdeal.Launch
import proofs.«428536_j19061064860126_1_alg».proof.Proof.Gen.KernelIdeal.Points
import proofs.«428536_j19061064860126_1_alg».proof.Proof.Gen.KernelIdeal.Frame
import proofs.«428536_j19061064860126_1_alg».proof.Proof.Gen.ReferenceIdeal
import proofs.«428536_j19061064860126_1_alg».proof.Proof.Gen.Pre_finite_inputs
import proofs.«428536_j19061064860126_1_alg».proof.Proof.Gen.ReferenceIdeal.Run
import proofs.«428536_j19061064860126_1_alg».proof.Proof.Gen.ReferenceIdeal.Read
import proofs.«428536_j19061064860126_1_alg».proof.Proof.KernelRun
import proofs.«428536_j19061064860126_1_alg».proof.Proof.RefValue
import proofs.«428536_j19061064860126_1_alg».proof.Proof.PreRange
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with every edge's score: the kernel's column laid out as a vector, and the reference's composed
    term read at an edge, are `EdgeScore.score` of the same two gathered rows and the same weights. -/
theorem algebraic : Cert.algebraic_KernelIdeal_ReferenceIdeal := by
  intro m ρ m' ρ' hpre hagree
  have hr : ∀ (c : Dev Cert.KernelIdeal.nD) j,
      IntOp.cmpi .sge (m ((c.tc : Thread Cert.KernelIdeal.nD Cert.KernelIdeal.τ).loc Cert.KernelIdeal.main_arg1) j) 4294867296#32 = 1#1
        ∧ IntOp.cmpi .slt (m ((c.tc : Thread Cert.KernelIdeal.nD Cert.KernelIdeal.τ).loc Cert.KernelIdeal.main_arg1) j) 100000#32 = 1#1 :=
    fun c j => Cert.PreRange.index_range _ _ _ _ _ _ (hpre c) j
  refine ⟨fun c => Cert.KernelIdeal.Result.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2]
  funext i
  obtain ⟨e, rfl⟩ : ∃ e : Fin 1000000, i = ix1 e := ⟨i 0, eq_ix1 i⟩
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
